-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096 .f32) (main_arg3 : FVec F S4096x16 .f32) (main_arg4 : FVec F S16x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S512x4096 : Shape := ⟨2, ![512, 4096]⟩
abbrev S512x16 : Shape := ⟨2, ![512, 16]⟩
abbrev S16384x4096 : Shape := ⟨2, ![16384, 4096]⟩
abbrev S1x4096 : Shape := ⟨2, ![1, 4096]⟩
abbrev S1x512 : Shape := ⟨2, ![1, 512]⟩
abbrev S512x512 : Shape := ⟨2, ![512, 512]⟩

abbrev nBuf : Space → Nat
  | .hbm => 10
  | .vmem => 15
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4096x4096, .bf16⟩
  | .hbm, ⟨6, _⟩ => ⟨S16384x4096, .f32⟩
  | .hbm, ⟨7, _⟩ => ⟨S1x4096, .f32⟩
  | .hbm, ⟨8, _⟩ => ⟨S16384x4096, .f32⟩
  | .hbm, ⟨9, _⟩ => ⟨S4x4096x4096, .f32⟩
  | .local _ .vmem, ⟨0, _⟩ => ⟨S512x4096, .f32⟩
  | .local _ .vmem, ⟨1, _⟩ => ⟨S512x4096, .f32⟩
  | .local _ .vmem, ⟨2, _⟩ => ⟨S512x16, .f32⟩
  | .local _ .vmem, ⟨3, _⟩ => ⟨S512x16, .f32⟩
  | .local _ .vmem, ⟨4, _⟩ => ⟨S16x4096, .f32⟩
  | .local _ .vmem, ⟨5, _⟩ => ⟨S512x4096, .bf16⟩
  | .local _ .vmem, ⟨6, _⟩ => ⟨S512x4096, .bf16⟩
  | .local _ .vmem, ⟨7, _⟩ => ⟨S512x4096, .f32⟩
  | .local _ .vmem, ⟨8, _⟩ => ⟨S512x4096, .f32⟩
  | .local _ .vmem, ⟨9, _⟩ => ⟨S512x4096, .bf16⟩
  | .local _ .vmem, ⟨10, _⟩ => ⟨S512x4096, .bf16⟩
  | .local _ .vmem, ⟨11, _⟩ => ⟨S1x512, .f32⟩
  | .local _ .vmem, ⟨12, _⟩ => ⟨S1x512, .f32⟩
  | .local _ .vmem, ⟨13, _⟩ => ⟨S512x512, .f32⟩
  | .local _ .vmem, ⟨14, _⟩ => ⟨S512x512, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S512x16_S512x16_0_0 : ∀ a, (![0, 0] : Fin 2 → Nat) a + S512x16.size a ≤ S512x16.size a
  h_S512x16 : 0 < S512x16.numel
  bitsLt_bf16_f32 : FTy.bits .bf16 < FTy.bits .f32
  inb_S16x4096_S16x4096_0_0 : ∀ a, (![0, 0] : Fin 2 → Nat) a + S16x4096.size a ≤ S16x4096.size a
  h_S16x4096 : 0 < S16x4096.numel
  inb_S512x4096_S512x4096_0_0 : ∀ a, (![0, 0] : Fin 2 → Nat) a + S512x4096.size a ≤ S512x4096.size a
  h_S512x4096 : 0 < S512x4096.numel
  packedbf16_S512x4096_S512x4096_0_0 : (Rect.unit (s := S512x4096) ![0, 0] S512x4096.size inb_S512x4096_S512x4096_0_0).PackedRows (EltTy.packing .bf16)
  shapeCasts_S4x4096x4096_S16384x4096 : S4x4096x4096.ShapeCasts S16384x4096
  shapeCasts_S4096_S1x4096 : S4096.ShapeCasts S1x4096
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S16384x4096_S4x4096x4096 : S16384x4096.ShapeCasts S4x4096x4096
  dot_S512x16_S16x4096_S512x4096_1_0_0_1_n_n_wf : DotDims.WF S512x16 S16x4096 S512x4096 [1] [0] [0] [1] [] []
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S4096x16.size a
  hwx0_1 : ∀ i : grid0.Coords, EltTy.bits .f32 = 32 ∨ (Rect.block (s := S4096x16) S512x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .f32 = 32 ∨ (Rect.block (s := S16x4096) S16x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S4096x4096.size a
  hwx0_3 : ∀ i : grid0.Coords, EltTy.bits .bf16 = 32 ∨ (Rect.block (s := S4096x4096) S512x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S16384x4096.size a
  hwx1_0 : ∀ i : grid1.Coords, EltTy.bits .f32 = 32 ∨ (Rect.block (s := S16384x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S16384x4096.size a
  hwx1_3 : ∀ i : grid1.Coords, EltTy.bits .f32 = 32 ∨ (Rect.block (s := S16384x4096) S512x512.size (cc1_transform_3 i) (hinb1_3 i)).WholeWords (EltTy.packing .f32)

variable [Facts₀]

def dot_S512x16_S16x4096_S512x4096_1_0_0_1_n_n : DotDims S512x16 S16x4096 S512x4096 where
  lhsContracting := [1]
  rhsContracting := [0]
  lhsNonContracting := [0]
  rhsNonContracting := [1]
  lhsBatch := []
  rhsBatch := []
  wf := dot_S512x16_S16x4096_S512x4096_1_0_0_1_n_n_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S1x1x4096 : Shape := ⟨3, ![1, 1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4096x4096, .f32⟩
  | .hbm, ⟨6, _⟩ => ⟨S4096x4096, .f32⟩
  | .hbm, ⟨7, _⟩ => ⟨S4x4096x4096, .f32⟩
  | .hbm, ⟨8, _⟩ => ⟨S1x1x4096, .f32⟩
  | .hbm, ⟨9, _⟩ => ⟨S4x4096x4096, .f32⟩
  | .hbm, ⟨10, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  dot_S4096x16_S16x4096_S4096x4096_1_0_0_1_n_n_wf : DotDims.WF S4096x16 S16x4096 S4096x4096 [1] [0] [0] [1] [] []
  dot_S4x4096x4096_S4096x4096_S4x4096x4096_2_1_01_0_n_n_wf : DotDims.WF S4x4096x4096 S4096x4096 S4x4096x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.TileMerge.lean ====
import proofs.«157821_j37271726194873_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

/-!
The first kernel on one block of 512 output features: the block of `W` plus the rank-16 product of the block of `A`
with `B`, read entry by entry on the extended reals.
-/

namespace Cert.KernelIdeal.Merge

open Cert.KernelIdeal Cert.KernelIdeal.Gen

/-! ## The rank-16 product inside one row block -/

theorem lhs_0 (j : S512x4096.Idx) (q : dot_S512x16_S16x4096_S512x4096_1_0_0_1_n_n.contr.Idx) :
    (dot_S512x16_S16x4096_S512x4096_1_0_0_1_n_n.lhsIdx j q 0).val = (j 0).val := by
  unfold DotDims.lhsIdx
  rw [dif_neg (show ¬(0 : Fin S512x16.rank) ∈ dot_S512x16_S16x4096_S512x4096_1_0_0_1_n_n.lhsBatch by decide), dif_pos (show (0 : Fin S512x16.rank) ∈ dot_S512x16_S16x4096_S512x4096_1_0_0_1_n_n.lhsNonContracting by decide)]
  rfl
theorem lhs_1 (j : S512x4096.Idx) (q : dot_S512x16_S16x4096_S512x4096_1_0_0_1_n_n.contr.Idx) :
    (dot_S512x16_S16x4096_S512x4096_1_0_0_1_n_n.lhsIdx j q 1).val = (q ⟨0, by decide⟩).val :=
  dot_S512x16_S16x4096_S512x4096_1_0_0_1_n_n.lhsIdx_val_of_single rfl j q
theorem rhs_0 (j : S512x4096.Idx) (q : dot_S512x16_S16x4096_S512x4096_1_0_0_1_n_n.contr.Idx) :
    (dot_S512x16_S16x4096_S512x4096_1_0_0_1_n_n.rhsIdx j q 0).val = (q ⟨0, by decide⟩).val :=
  dot_S512x16_S16x4096_S512x4096_1_0_0_1_n_n.rhsIdx_val_of_single rfl j q
theorem rhs_1 (j : S512x4096.Idx) (q : dot_S512x16_S16x4096_S512x4096_1_0_0_1_n_n.contr.Idx) :
    (dot_S512x16_S16x4096_S512x4096_1_0_0_1_n_n.rhsIdx j q 1).val = (j 1).val := by
  unfold DotDims.rhsIdx
  rw [dif_neg (show ¬(1 : Fin S16x4096.rank) ∈ dot_S512x16_S16x4096_S512x4096_1_0_0_1_n_n.rhsBatch by decide), dif_pos (show (1 : Fin S16x4096.rank) ∈ dot_S512x16_S16x4096_S512x4096_1_0_0_1_n_n.rhsNonContracting by decide)]
  rfl

/-- Row `j 0` of the block of `A`, column `r`. -/
abbrev aIdx (j : S512x4096.Idx) (r : Fin 16) : S512x16.Idx := fun a => match a with
  | ⟨0, _⟩ => ⟨(j 0).val, (j 0).isLt⟩
  | ⟨1, _⟩ => ⟨r.val, r.isLt⟩
/-- Row `r` of `B`, column `j 1`. -/
abbrev bIdx (j : S512x4096.Idx) (r : Fin 16) : S16x4096.Idx := fun a => match a with
  | ⟨0, _⟩ => ⟨r.val, r.isLt⟩
  | ⟨1, _⟩ => ⟨(j 1).val, (j 1).isLt⟩

/-- What the first kernel stores, entry by entry, on the extended reals: the entry of the block of `W` plus the
    rank-16 sum `∑ r, A[row, r] · B[r, col]` (the two roundings to bf16 are the identity there, and the product into a
    zero accumulator is the bare sum). -/
theorem pay_apply (a : Vec Ideal S512x16 .f32) (b : Vec Ideal S16x4096 .f32) (w : Vec Ideal S512x4096 .f32) (j : S512x4096.Idx) :
    k0_pay1 (F := Ideal) a b w j = w j + ∑ r : Fin 16, a (aIdx j r) * b (bIdx j r) := by
  unfold k0_pay1
  show (w j : EReal) + FloatOps.matmul (F := Ideal) dot_S512x16_S16x4096_S512x4096_1_0_0_1_n_n none (truncf (F := Ideal) .bf16 (a : FVec Ideal S512x16 .f32) bitsLt_bf16_f32) (truncf (F := Ideal) .bf16 (b : FVec Ideal S16x4096 .f32) bitsLt_bf16_f32) (constant (F := Ideal) S512x4096 .f32 0x00000000#32) j = _
  rw [Ideal.matmul_constant_zero_apply, ← Equiv.sum_comp (ValueIdx.contrEquiv1 dot_S512x16_S16x4096_S512x4096_1_0_0_1_n_n 16 rfl rfl).symm]
  refine congrArg (w j + ·) (Finset.sum_congr rfl fun r _ => ?_)
  have hk := ValueIdx.contrEquiv1_symm_val dot_S512x16_S16x4096_S512x4096_1_0_0_1_n_n 16 rfl rfl r
  have el : dot_S512x16_S16x4096_S512x4096_1_0_0_1_n_n.lhsIdx j ((ValueIdx.contrEquiv1 dot_S512x16_S16x4096_S512x4096_1_0_0_1_n_n 16 rfl rfl).symm r) = aIdx j r := funext fun a => Fin.ext (by
    match a with
    | ⟨0, _⟩ => exact lhs_0 _ _
    | ⟨1, _⟩ => exact (lhs_1 _ _).trans hk)
  have er : dot_S512x16_S16x4096_S512x4096_1_0_0_1_n_n.rhsIdx j ((ValueIdx.contrEquiv1 dot_S512x16_S16x4096_S512x4096_1_0_0_1_n_n 16 rfl rfl).symm r) = bIdx j r := funext fun a => Fin.ext (by
    match a with
    | ⟨0, _⟩ => exact (rhs_0 _ _).trans hk
    | ⟨1, _⟩ => exact rhs_1 _ _)
  rw [el, er]
  rfl

end Cert.KernelIdeal.Merge

end
-- ==== Proof.MergedArray.lean ====
import proofs.«157821_j37271726194873_1_alg».proof.Proof.Gen.KernelIdeal.Frame
import Idealize.ShloMosaic.Lib.Pipeline.Value
import Idealize.ShloMosaic.Lib.ValueIdx
import Idealize.ShloMosaic.PureOps.Ideal.Laws
import proofs.«157821_j37271726194873_1_alg».proof.Proof.TileMerge
set_option maxRecDepth 16384

noncomputable section

open Idealize.ShloMosaic Idealize.ShloMosaic.TcCoe Idealize.SL.Sem
open Idealize.ShloMosaic.Pipeline (Dat)

/-!
The array the first kernel leaves: its eight row blocks tile the 4096 × 4096 array of merged weights, and block `t` is
`W + A · B` on rows `512 t … 512 t + 511`, so the whole array is `W + A · B`, entry by entry, of the three arrays the
region finds.
-/

namespace Cert.KernelIdeal.Merge

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Entry `(i 0, r)` of `A`. -/
abbrev rowA (i : S4096x4096.Idx) (r : Fin 16) : S4096x16.Idx := fun a => match a with
  | ⟨0, _⟩ => ⟨(i 0).val, (i 0).isLt⟩
  | ⟨1, _⟩ => ⟨r.val, r.isLt⟩
/-- Entry `(r, i 1)` of `B`. -/
abbrev colB (i : S4096x4096.Idx) (r : Fin 16) : S16x4096.Idx := fun a => match a with
  | ⟨0, _⟩ => ⟨r.val, r.isLt⟩
  | ⟨1, _⟩ => ⟨(i 1).val, (i 1).isLt⟩

/-- The merged weights `W + A · B`, entry by entry. -/
def merged (w : S4096x4096.Idx → EReal) (a : S4096x16.Idx → EReal) (b : S16x4096.Idx → EReal) : S4096x4096.Idx → EReal :=
  fun i => w i + ∑ r : Fin 16, a (rowA i r) * b (colB i r)

/-- Where the four windows' blocks sit at grid point `t`: `W`, `A` and the output move down the rows with `t`,
    `B` stays whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the merged weights. -/
theorem flushed_eq (c : Dev nD) (t : Fin cfg0.N) :
    (dat0 V c).flushed 3 t = ((cfg0.win 3).blk t).view.read (Elt Ideal) (merged (V c main_arg1) (V c main_arg3) (V c main_arg4)) := by
  show (cfg0.win 3).cut (grid0.coords t) ((dat0 V c).after 3 t) = _
  rw [after0_3]
  unfold out0_3
  rw [View.canon_unit_zero hz]
  simp only [View.ld_unit_zero (S := S512x4096) hz, View.ld_unit_zero (S := S512x16) hz, View.ld_unit_zero (S := S16x4096) hz]
  obtain ⟨e0, e1, e2, e3, e4, e5, e6, e7⟩ := idx_facts t
  funext j
  show k0_pay1 (F := Ideal) (iblk0 V c 1 t) (iblk0 V c 2 t) (iblk0 V c 0 t) j
      = merged (V c main_arg1) (V c main_arg3) (V c main_arg4) (((cfg0.win 3).blk t).view.emb j)
  refine (pay_apply (iblk0 V c 1 t) (iblk0 V c 2 t) (iblk0 V c 0 t) j).trans ?_
  have hw : (iblk0 V c 0 t : Vec Ideal S512x4096 .f32) j = V c main_arg1 (((cfg0.win 3).blk t).view.emb j) := by
    show V c main_arg1 (((cfg0.win 0).blk t).view.emb j) = V c main_arg1 (((cfg0.win 3).blk t).view.emb j)
    refine congrArg (V c main_arg1) (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 4096 + 1 * (j 1).val = win0_3.index t (1 : Fin 2) * 4096 + 1 * (j 1).val; omega
  have ha : ∀ r : Fin 16, (iblk0 V c 1 t : Vec Ideal S512x16 .f32) (aIdx j r) = V c main_arg3 (rowA (((cfg0.win 3).blk t).view.emb j) r) := fun r => by
    show V c main_arg3 (((cfg0.win 1).blk t).view.emb (aIdx j r)) = V c main_arg3 (rowA (((cfg0.win 3).blk t).view.emb j) r)
    refine congrArg (V c main_arg3) (funext fun a => Fin.ext ?_)
    match a with
    | ⟨0, _⟩ => show win0_1.index t (0 : Fin 2) * 512 + 1 * (j 0).val = win0_3.index t (0 : Fin 2) * 512 + 1 * (j 0).val; omega
    | ⟨1, _⟩ => show win0_1.index t (1 : Fin 2) * 16 + 1 * r.val = r.val; omega
  have hb : ∀ r : Fin 16, (iblk0 V c 2 t : Vec Ideal S16x4096 .f32) (bIdx j r) = V c main_arg4 (colB (((cfg0.win 3).blk t).view.emb j) r) := fun r => by
    show V c main_arg4 (((cfg0.win 2).blk t).view.emb (bIdx j r)) = V c main_arg4 (colB (((cfg0.win 3).blk t).view.emb j) r)
    refine congrArg (V c main_arg4) (funext fun a => Fin.ext ?_)
    match a with
    | ⟨0, _⟩ => show win0_2.index t (0 : Fin 2) * 16 + 1 * r.val = r.val; omega
    | ⟨1, _⟩ => show win0_2.index t (1 : Fin 2) * 4096 + 1 * (j 1).val = win0_3.index t (1 : Fin 2) * 4096 + 1 * (j 1).val; omega
  exact congrArg₂ (· + ·) hw (Finset.sum_congr rfl fun r _ => congrArg₂ (· * ·) (ha r) (hb r))

/-- An entry of the array is in point `t`'s block iff its row is among the block's 512 rows. -/
theorem mem_blk (t : Fin cfg0.N) (i : S4096x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v0).slice (win0_3.rect t)).set ↔ _
  rw [View.set_slice_whole, Rect.mem_set_unit]
  exact Iff.rfl

/-- Every entry lies in the block of the point `row / 512`. -/
theorem cover (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 8 := N_0
  let t : Fin cfg0.N := ⟨(i 0).val / 512, by rw [hN]; omega⟩
  obtain ⟨-, -, -, -, -, -, e6, e7⟩ := idx_facts t
  have ht : t.val = (i 0).val / 512 := rfl
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 4096 ≤ (i 1).val ∧ (i 1).val < win0_3.index t (1 : Fin 2) * 4096 + 4096; omega

/-- THE ARRAY the first region leaves: the merged weights of the arrays it found. -/
theorem final (c : Dev nD) :
    (dat0 V c).arrAt 3 cfg0.N = merged (V c main_arg1) (V c main_arg3) (V c main_arg4) :=
  (dat0 V c).arrAt_eq_of_cover 3 (merged (V c main_arg1) (V c main_arg3) (V c main_arg4)) (fun t _ => flushed_eq V c t) cover

end Cert.KernelIdeal.Merge

end
-- ==== Proof.TileProject.lean ====
import proofs.«157821_j37271726194873_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

/-!
The second kernel on one 512 × 512 tile: 512 rows of activations against 512 rows of the merged weights, contracted
over all 4096 input features, plus the bias, read entry by entry on the extended reals.
-/

namespace Cert.KernelIdeal.Project

open Cert.KernelIdeal Cert.KernelIdeal.Gen

/-! ## One 512 × 512 tile of the product with the merged weights -/

theorem lhs_0 (j : S512x512.Idx) (q : dot_S512x4096_S512x4096_S512x512_1_1_0_0_n_n.contr.Idx) :
    (dot_S512x4096_S512x4096_S512x512_1_1_0_0_n_n.lhsIdx j q 0).val = (j 0).val := by
  unfold DotDims.lhsIdx
  rw [dif_neg (show ¬(0 : Fin S512x4096.rank) ∈ dot_S512x4096_S512x4096_S512x512_1_1_0_0_n_n.lhsBatch by decide), dif_pos (show (0 : Fin S512x4096.rank) ∈ dot_S512x4096_S512x4096_S512x512_1_1_0_0_n_n.lhsNonContracting by decide)]
  rfl
theorem lhs_1 (j : S512x512.Idx) (q : dot_S512x4096_S512x4096_S512x512_1_1_0_0_n_n.contr.Idx) :
    (dot_S512x4096_S512x4096_S512x512_1_1_0_0_n_n.lhsIdx j q 1).val = (q ⟨0, by decide⟩).val :=
  dot_S512x4096_S512x4096_S512x512_1_1_0_0_n_n.lhsIdx_val_of_single rfl j q
theorem rhs_0 (j : S512x512.Idx) (q : dot_S512x4096_S512x4096_S512x512_1_1_0_0_n_n.contr.Idx) :
    (dot_S512x4096_S512x4096_S512x512_1_1_0_0_n_n.rhsIdx j q 0).val = (j 1).val := by
  unfold DotDims.rhsIdx
  rw [dif_neg (show ¬(0 : Fin S512x4096.rank) ∈ dot_S512x4096_S512x4096_S512x512_1_1_0_0_n_n.rhsBatch by decide), dif_pos (show (0 : Fin S512x4096.rank) ∈ dot_S512x4096_S512x4096_S512x512_1_1_0_0_n_n.rhsNonContracting by decide)]
  rfl
theorem rhs_1 (j : S512x512.Idx) (q : dot_S512x4096_S512x4096_S512x512_1_1_0_0_n_n.contr.Idx) :
    (dot_S512x4096_S512x4096_S512x512_1_1_0_0_n_n.rhsIdx j q 1).val = (q ⟨0, by decide⟩).val :=
  dot_S512x4096_S512x4096_S512x512_1_1_0_0_n_n.rhsIdx_val_of_single rfl j q

/-- Row `j 0` of the block of activations, column `k`. -/
abbrev xIdx (j : S512x512.Idx) (k : Fin 4096) : S512x4096.Idx := fun a => match a with
  | ⟨0, _⟩ => ⟨(j 0).val, (j 0).isLt⟩
  | ⟨1, _⟩ => ⟨k.val, k.isLt⟩
/-- Row `j 1` of the block of merged weights (an output feature), column `k`. -/
abbrev wIdx (j : S512x512.Idx) (k : Fin 4096) : S512x4096.Idx := fun a => match a with
  | ⟨0, _⟩ => ⟨(j 1).val, (j 1).isLt⟩
  | ⟨1, _⟩ => ⟨k.val, k.isLt⟩
/-- The bias entry of output feature `j 1`. -/
abbrev biasIdx (j : S512x512.Idx) : S1x512.Idx := fun a => match a with
  | ⟨0, _⟩ => ⟨0, Nat.one_pos⟩
  | ⟨1, _⟩ => ⟨(j 1).val, (j 1).isLt⟩

/-- What the second kernel stores, entry by entry, on the extended reals: `∑ k, x[row, k] · Weff[feature, k]`
    plus the feature's bias (the rounding of the activations to bf16 is the identity there, the product into a zero
    accumulator the bare sum, the bias row repeated down the tile). -/
theorem pay_apply (x : Vec Ideal S512x4096 .f32) (wv : Vec Ideal S512x4096 .bf16) (bv : Vec Ideal S1x512 .f32) (j : S512x512.Idx) :
    k1_pay1 (F := Ideal) x wv bv j = (∑ k : Fin 4096, x (xIdx j k) * wv (wIdx j k)) + bv (biasIdx j) := by
  unfold k1_pay1
  simp only [shapeCast_self]
  show FloatOps.matmul (F := Ideal) dot_S512x4096_S512x4096_S512x512_1_1_0_0_n_n none (truncf (F := Ideal) .bf16 (x : FVec Ideal S512x4096 .f32) bitsLt_bf16_f32) (wv : FVec Ideal S512x4096 .bf16) (constant (F := Ideal) S512x512 .f32 0x00000000#32) j
      + broadcastTo S512x512 (bv : FVec Ideal S1x512 .f32) broadcasts_S1x512_S512x512 j = _
  rw [Ideal.matmul_constant_zero_apply, ← Equiv.sum_comp (ValueIdx.contrEquiv1 dot_S512x4096_S512x4096_S512x512_1_1_0_0_n_n 4096 rfl rfl).symm,
    broadcastTo_apply (bv : FVec Ideal S1x512 .f32) broadcasts_S1x512_S512x512 j (biasIdx j) (fun a => match a with
      | ⟨0, _⟩ => by show 0 = if (1 : Nat) = 1 then 0 else (j 0).val; rw [if_pos rfl]
      | ⟨1, _⟩ => by show (j 1).val = if (512 : Nat) = 1 then 0 else (j 1).val; rw [if_neg (by decide)])]
  refine congrArg (· + bv (biasIdx j)) (Finset.sum_congr rfl fun k _ => ?_)
  have hk := ValueIdx.contrEquiv1_symm_val dot_S512x4096_S512x4096_S512x512_1_1_0_0_n_n 4096 rfl rfl k
  have el : dot_S512x4096_S512x4096_S512x512_1_1_0_0_n_n.lhsIdx j ((ValueIdx.contrEquiv1 dot_S512x4096_S512x4096_S512x512_1_1_0_0_n_n 4096 rfl rfl).symm k) = xIdx j k := funext fun a => Fin.ext (by
    match a with
    | ⟨0, _⟩ => exact lhs_0 _ _
    | ⟨1, _⟩ => exact (lhs_1 _ _).trans hk)
  have er : dot_S512x4096_S512x4096_S512x512_1_1_0_0_n_n.rhsIdx j ((ValueIdx.contrEquiv1 dot_S512x4096_S512x4096_S512x512_1_1_0_0_n_n 4096 rfl rfl).symm k) = wIdx j k := funext fun a => Fin.ext (by
    match a with
    | ⟨0, _⟩ => exact rhs_0 _ _
    | ⟨1, _⟩ => exact (rhs_1 _ _).trans hk)
  rw [el, er]
  rfl

end Cert.KernelIdeal.Project

end
-- ==== Proof.ProjectedArray.lean ====
import proofs.«157821_j37271726194873_1_alg».proof.Proof.Gen.KernelIdeal.Frame
import Idealize.ShloMosaic.Lib.Pipeline.Value
import Idealize.ShloMosaic.Lib.ValueIdx
import Idealize.ShloMosaic.PureOps.Ideal.Laws
import proofs.«157821_j37271726194873_1_alg».proof.Proof.TileProject
set_option maxRecDepth 16384

noncomputable section

open Idealize.ShloMosaic Idealize.ShloMosaic.TcCoe Idealize.SL.Sem
open Idealize.ShloMosaic.Pipeline (Dat)

/-!
The array the second kernel leaves: its 32 × 8 tiles of 512 × 512 entries tile the 16384 × 4096 array, and the tile at
grid point `(p, q)` holds, for rows `512 p …` and output features `512 q …`, the contraction of the row of activations
with the feature's row of merged weights over all 4096 input features, plus the feature's bias. So the whole array is that
function, entry by entry, of the three arrays the region finds.
-/

namespace Cert.KernelIdeal.Project

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Entry `(i 0, k)` of the flattened activations. -/
abbrev actAt (i : S16384x4096.Idx) (k : Fin 4096) : S16384x4096.Idx := fun a => match a with
  | ⟨0, _⟩ => ⟨(i 0).val, (i 0).isLt⟩
  | ⟨1, _⟩ => ⟨k.val, k.isLt⟩
/-- Entry `(i 1, k)` of the merged weights: output feature `i 1`, input feature `k`. -/
abbrev featAt (i : S16384x4096.Idx) (k : Fin 4096) : S4096x4096.Idx := fun a => match a with
  | ⟨0, _⟩ => ⟨(i 1).val, (i 1).isLt⟩
  | ⟨1, _⟩ => ⟨k.val, k.isLt⟩
/-- The bias of output feature `i 1`, in the one-row layout. -/
abbrev biasAt (i : S16384x4096.Idx) : S1x4096.Idx := fun a => match a with
  | ⟨0, _⟩ => ⟨0, Nat.one_pos⟩
  | ⟨1, _⟩ => ⟨(i 1).val, (i 1).isLt⟩

/-- The affine map `x · Weffᵀ + bias` on flattened rows, entry by entry. -/
def projected (x2 : S16384x4096.Idx → EReal) (wm : S4096x4096.Idx → EReal) (b2 : S1x4096.Idx → EReal) : S16384x4096.Idx → EReal :=
  fun i => (∑ k : Fin 4096, x2 (actAt i k) * wm (featAt i k)) + b2 (biasAt i)

/-- Where the four windows' blocks sit at grid point `t = 8 p + q`: the activations move with `p`, the merged weights
    and the bias with `q`, the output tile with both. -/
theorem idx_facts : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = 0 ∧ win1_2.index t (1 : Fin 2) = t.val % 8
    ∧ win1_3.index t (0 : Fin 2) = t.val / 8 ∧ win1_3.index t (1 : Fin 2) = t.val % 8 :=
  (by decide +kernel : ∀ t : Fin grid1.N, _)

/-- What point `t` writes back is tile `t` of the affine map. -/
theorem flushed_eq (c : Dev nD) (t : Fin cfg1.N) :
    (dat1 V c).flushed 3 t = ((cfg1.win 3).blk t).view.read (Elt Ideal) (projected (V c main_v1) (V c main_v0) (V c main_v2)) := by
  show (cfg1.win 3).cut (grid1.coords t) ((dat1 V c).after 3 t) = _
  rw [after1_3]
  unfold out1_3
  rw [View.canon_unit_zero hz]
  simp only [View.ld_unit_zero (S := S512x4096) hz, View.ld_unit_zero (S := S1x512) hz]
  obtain ⟨e0, e1, e2, e3, e4, e5, e6, e7⟩ := idx_facts t
  funext j
  show k1_pay1 (F := Ideal) (iblk1 V c 0 t) (iblk1 V c 1 t) (iblk1 V c 2 t) j
      = projected (V c main_v1) (V c main_v0) (V c main_v2) (((cfg1.win 3).blk t).view.emb j)
  refine (pay_apply (iblk1 V c 0 t) (iblk1 V c 1 t) (iblk1 V c 2 t) j).trans ?_
  have hx : ∀ k : Fin 4096, (iblk1 V c 0 t : Vec Ideal S512x4096 .f32) (xIdx j k) = V c main_v1 (actAt (((cfg1.win 3).blk t).view.emb j) k) := fun k => by
    show V c main_v1 (((cfg1.win 0).blk t).view.emb (xIdx j k)) = V c main_v1 (actAt (((cfg1.win 3).blk t).view.emb j) k)
    refine congrArg (V c main_v1) (funext fun a => Fin.ext ?_)
    match a with
    | ⟨0, _⟩ => show win1_0.index t (0 : Fin 2) * 512 + 1 * (j 0).val = win1_3.index t (0 : Fin 2) * 512 + 1 * (j 0).val; omega
    | ⟨1, _⟩ => show win1_0.index t (1 : Fin 2) * 4096 + 1 * k.val = k.val; omega
  have hwm : ∀ k : Fin 4096, (iblk1 V c 1 t : Vec Ideal S512x4096 .bf16) (wIdx j k) = V c main_v0 (featAt (((cfg1.win 3).blk t).view.emb j) k) := fun k => by
    show V c main_v0 (((cfg1.win 1).blk t).view.emb (wIdx j k)) = V c main_v0 (featAt (((cfg1.win 3).blk t).view.emb j) k)
    refine congrArg (V c main_v0) (funext fun a => Fin.ext ?_)
    match a with
    | ⟨0, _⟩ => show win1_1.index t (0 : Fin 2) * 512 + 1 * (j 1).val = win1_3.index t (1 : Fin 2) * 512 + 1 * (j 1).val; omega
    | ⟨1, _⟩ => show win1_1.index t (1 : Fin 2) * 4096 + 1 * k.val = k.val; omega
  have hb : (iblk1 V c 2 t : Vec Ideal S1x512 .f32) (biasIdx j) = V c main_v2 (biasAt (((cfg1.win 3).blk t).view.emb j)) := by
    show V c main_v2 (((cfg1.win 2).blk t).view.emb (biasIdx j)) = V c main_v2 (biasAt (((cfg1.win 3).blk t).view.emb j))
    refine congrArg (V c main_v2) (funext fun a => Fin.ext ?_)
    match a with
    | ⟨0, _⟩ => show win1_2.index t (0 : Fin 2) * 1 + 1 * 0 = 0; omega
    | ⟨1, _⟩ => show win1_2.index t (1 : Fin 2) * 512 + 1 * (j 1).val = win1_3.index t (1 : Fin 2) * 512 + 1 * (j 1).val; omega
  exact congrArg₂ (· + ·) (Finset.sum_congr rfl fun k _ => congrArg₂ (· * ·) (hx k) (hwm k)) hb

/-- An entry of the array is in point `t`'s tile iff its row and its feature are among the tile's. -/
theorem mem_blk (t : Fin cfg1.N) (i : S16384x4096.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v3).slice (win1_3.rect t)).set ↔ _
  rw [View.set_slice_whole, Rect.mem_set_unit]
  exact Iff.rfl

/-- Every entry lies in the tile of the point `8 (row / 512) + feature / 512`. -/
theorem cover (i : S16384x4096.Idx) : ∃ t : Fin cfg1.N, (cfg1.win 3).flush t = true ∧ i ∈ ((cfg1.win 3).blk t).view.set := by
  have hi0 : (i 0).val < 16384 := (i 0).isLt
  have hi1 : (i 1).val < 4096 := (i 1).isLt
  have hN : cfg1.N = 256 := N_1
  let t : Fin cfg1.N := ⟨(i 0).val / 512 * 8 + (i 1).val / 512, by rw [hN]; omega⟩
  obtain ⟨-, -, -, -, -, -, e6, e7⟩ := idx_facts t
  have ht : t.val = (i 0).val / 512 * 8 + (i 1).val / 512 := rfl
  refine ⟨t, flush1_3 t, ?_⟩
  rw [mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 512 ≤ (i 1).val ∧ (i 1).val < win1_3.index t (1 : Fin 2) * 512 + 512; omega

/-- THE ARRAY the second region leaves: the affine map of the arrays it found. -/
theorem final (c : Dev nD) :
    (dat1 V c).arrAt 3 cfg1.N = projected (V c main_v1) (V c main_v0) (V c main_v2) :=
  (dat1 V c).arrAt_eq_of_cover 3 (projected (V c main_v1) (V c main_v0) (V c main_v2)) (fun t _ => flushed_eq V c t) cover

end Cert.KernelIdeal.Project

end
-- ==== Proof.ResultValue.lean ====
import proofs.«157821_j37271726194873_1_alg».proof.Proof.Gen.KernelIdeal.Frame
import Idealize.ShloMosaic.Lib.Pipeline.Value
import Idealize.ShloMosaic.Lib.ValueIdx
import Idealize.ShloMosaic.PureOps.Ideal.Laws
import proofs.«157821_j37271726194873_1_alg».proof.Proof.MergedArray
import proofs.«157821_j37271726194873_1_alg».proof.Proof.ProjectedArray
import Idealize.ShloMosaic.Lib.StableHlo.Run
set_option maxRecDepth 16384

noncomputable section

open Idealize.ShloMosaic Idealize.ShloMosaic.TcCoe Idealize.SL.Sem
open Idealize.ShloMosaic.Pipeline (Dat)

/-!
What the program's result array holds after the run, as one function of the launch memory: the second region's array,
folded back to rank 3, of the activations flattened to 16384 rows, the first region's merged weights, and the bias laid
out as one row.
-/

namespace Cert.KernelIdeal.Result

open Cert.KernelIdeal Cert.KernelIdeal.Gen Idealize.ShloMosaic.StableHlo

variable (m : (ℓ : Loc nD τ sig) → Buf (Elt Ideal) ℓ) (ρ : Dev nD → PrngReg)

/-- The second region finds the activations flattened to rows. -/
theorem entry_x (c : Dev nD) :
    V2 m ρ c main_v1 = shapeCast S16384x4096 (m ((c : Thread nD τ).loc main_arg0)) shapeCasts_S4x4096x4096_S16384x4096 := by
  show StableHlo.after hostOps1 (W1 m ρ c) (Proc.devRef .tc main_v1) = _
  after_results
  rw [W1_of_ne m ρ c main_arg0 (by decide)]
  rfl

/-- The second region finds the bias as one row. -/
theorem entry_bias (c : Dev nD) :
    V2 m ρ c main_v2 = shapeCast S1x4096 (m ((c : Thread nD τ).loc main_arg2)) shapeCasts_S4096_S1x4096 := by
  show StableHlo.after hostOps1 (W1 m ρ c) (Proc.devRef .tc main_v2) = _
  after_results
  rw [W1_of_ne m ρ c main_arg2 (by decide)]
  rfl

/-- The second region finds the merged weights the first region left. -/
theorem entry_w (c : Dev nD) :
    V2 m ρ c main_v0 = Merge.merged (m ((c : Thread nD τ).loc main_arg1)) (m ((c : Thread nD τ).loc main_arg3)) (m ((c : Thread nD τ).loc main_arg4)) := by
  show StableHlo.after hostOps1 (W1 m ρ c) (Proc.devRef .tc main_v0) = _
  after_results
  exact (W1_arr m ρ c 3).trans (Merge.final (V0 m ρ) c)

/-- THE RESULT ARRAY after the run. -/
theorem result_eq (c : Dev nD) :
    W4 m ρ c (Proc.devRef .tc main_v4)
      = shapeCast S4x4096x4096
          (Project.projected
            (shapeCast S16384x4096 (m ((c : Thread nD τ).loc main_arg0)) shapeCasts_S4x4096x4096_S16384x4096)
            (Merge.merged (m ((c : Thread nD τ).loc main_arg1)) (m ((c : Thread nD τ).loc main_arg3)) (m ((c : Thread nD τ).loc main_arg4)))
            (shapeCast S1x4096 (m ((c : Thread nD τ).loc main_arg2)) shapeCasts_S4096_S1x4096))
          shapeCasts_S16384x4096_S4x4096x4096 := by
  show StableHlo.after hostOps2 (W3 m ρ c) (Proc.devRef .tc main_v4) = _
  after_results
  have h3 : W3 m ρ c (Proc.devRef .tc main_v3) = Project.projected (V2 m ρ c main_v1) (V2 m ρ c main_v0) (V2 m ρ c main_v2) :=
    (W3_arr m ρ c 3).trans (Project.final (V2 m ρ) c)
  rw [h3, entry_x, entry_w, entry_bias]
  rfl

end Cert.KernelIdeal.Result

end
-- ==== Proof.SameFunction.lean ====
import proofs.«157821_j37271726194873_1_alg».proof.Proof.Gen.KernelIdeal.Frame
import Idealize.ShloMosaic.Lib.Pipeline.Value
import Idealize.ShloMosaic.Lib.ValueIdx
import Idealize.ShloMosaic.PureOps.Ideal.Laws
import proofs.«157821_j37271726194873_1_alg».proof.Proof.MergedArray
import proofs.«157821_j37271726194873_1_alg».proof.Proof.ProjectedArray
import proofs.«157821_j37271726194873_1_alg».proof.Proof.Gen.ReferenceIdeal.Read
set_option maxRecDepth 16384

noncomputable section

open Idealize.ShloMosaic Idealize.ShloMosaic.TcCoe Idealize.SL.Sem
open Idealize.ShloMosaic.Pipeline (Dat)

/-!
The kernel's result and the reference's are one function. The reference computes `(W + A · B)` on the host, contracts the
rank-3 activations with it over the input features, and adds the bias broadcast over batch and position. The kernel computes
the same merged weights block by block, contracts the activations flattened to 16384 rows with them tile by tile, adds the
bias row, and folds the rows back to batch and position. Entry `(b, s, o)` of either is
`∑ k, x[b, s, k] · (W[o, k] + ∑ r, A[o, r] · B[r, k]) + bias[o]`: the same sums in the same order, so no law of the
extended reals beyond reading both sides at an index is needed.
-/

namespace Cert.SameFunction

open Cert.KernelIdeal
open Cert.ReferenceIdeal.Read (val_main_v0 val_main_v1 val_main_v2 val_main_v3 val_main_v4 val_main_v5
  val_main_v0_apply val_main_v1_apply val_main_v2_apply val_main_v3_apply val_main_v4_apply val_main_v5_apply
  lidx_main_v0 ridx_main_v0 lidx_main_v2 ridx_main_v2 idx_main_v3 idx_main_v4)

/-- The merged weights are the reference's `W + A · B`. -/
theorem merged_eq (w : S4096x4096.Idx → EReal) (a : S4096x16.Idx → EReal) (b : S16x4096.Idx → EReal) :
    Merge.merged w a b = val_main_v1 (F := Ideal) w a b := by
  funext j
  rw [val_main_v1_apply, val_main_v0_apply]
  rfl

/-- Entry `(b, s, o)` of the rank-3 result sits at row `4096 b + s`, column `o` of the flattened one. -/
abbrev flat (i : S4x4096x4096.Idx) : S16384x4096.Idx := fun a => match a with
  | ⟨0, _⟩ => ⟨(i 0).val * 4096 + (i 1).val, by
      have h0 : (i 0).val < 4 := (i 0).isLt
      have h1 : (i 1).val < 4096 := (i 1).isLt
      show (i 0).val * 4096 + (i 1).val < 16384
      omega⟩
  | ⟨1, _⟩ => ⟨(i 2).val, (i 2).isLt⟩

theorem result_is_reference (x : S4x4096x4096.Idx → EReal) (w : S4096x4096.Idx → EReal) (bias : S4096.Idx → EReal)
    (a : S4096x16.Idx → EReal) (b : S16x4096.Idx → EReal)
    (hx : S4x4096x4096.ShapeCasts S16384x4096) (hb : S4096.ShapeCasts S1x4096) (ho : S16384x4096.ShapeCasts S4x4096x4096) :
    shapeCast S4x4096x4096
        (Project.projected (shapeCast S16384x4096 x hx) (Merge.merged w a b) (shapeCast S1x4096 bias hb)) ho
      = val_main_v5 (F := Ideal) x w bias a b := by
  funext i
  rw [shapeCast_apply _ ho i (flat i) (by rw [Shape.rowMajor_val_two, Shape.rowMajor_val_three]; rfl)]
  rw [val_main_v5_apply, val_main_v2_apply, val_main_v4_apply, val_main_v3_apply, merged_eq]
  show (∑ k : Fin 4096, shapeCast S16384x4096 x hx (Project.actAt (flat i) k) * val_main_v1 (F := Ideal) w a b (Project.featAt (flat i) k))
      + shapeCast S1x4096 bias hb (Project.biasAt (flat i)) = _ + _
  refine congrArg₂ (· + ·) (Finset.sum_congr rfl fun k _ => congrArg₂ (· * ·) ?_ ?_) ?_
  · exact shapeCast_apply x hx (Project.actAt (flat i) k) (lidx_main_v2 i k)
      (by rw [Shape.rowMajor_val_three, Shape.rowMajor_val_two]; rfl)
  · exact congrArg (val_main_v1 (F := Ideal) w a b) (funext fun d => Fin.ext (by
      match d with
      | ⟨0, _⟩ => rfl
      | ⟨1, _⟩ => rfl))
  · exact shapeCast_apply bias hb (Project.biasAt (flat i)) (idx_main_v3 (idx_main_v4 i))
      (by rw [Shape.rowMajor_val_one, Shape.rowMajor_val_two]; show (i 2).val = 0 * 4096 + (i 2).val; omega)

end Cert.SameFunction

end
-- ==== Proof.lean ====
/-
  Low-rank-adapted linear layer: `out = x · (W + A · B)ᵀ + bias` over `x : [4, 4096, 4096]`, `W : [4096, 4096]`,
  `A : [4096, 16]`, `B : [16, 4096]`, `bias : [4096]`.

  The kernel program runs two tiled regions. The first merges the weights, one block of 512 output features at a time:
  `Weff = W + A · B`, the rank-16 product taken in bf16 inputs with an f32 accumulator and the sum stored as bf16. The
  second contracts the activations, flattened to 16384 rows and rounded to bf16 on load, with `Weff` over all 4096 input
  features, one 512 × 512 tile at a time, adds the bias row, and the rows are folded back to batch and position. The
  reference forms `W + A · B` and contracts the rank-3 activations with it directly, then adds the broadcast bias.

  On the extended reals every rounding is the identity and a product into a zero accumulator is the bare sum, so entry
  `(b, s, o)` of both results is `∑ k, x[b, s, k] · (W[o, k] + ∑ r, A[o, r] · B[r, k]) + bias[o]`, the same sums in the
  same order: the equality needs no algebraic law and never opens the finiteness precondition.

  The modules: TileMerge and TileProject read what each kernel stores at an entry of its tile; MergedArray and
  ProjectedArray lift that from tiles to the whole arrays each region leaves; RunResult is the run of the whole program
  with its result array named; ResultValue reads that array as one function of the launch memory; SameFunction shows it
  is the reference's term, index by index.
-/
import proofs.«157821_j37271726194873_1_alg».proof.Defs
import proofs.«157821_j37271726194873_1_alg».proof.Proof.Gen.Kernel.Frame
import proofs.«157821_j37271726194873_1_alg».proof.Proof.Gen.KernelIdeal.Frame
import proofs.«157821_j37271726194873_1_alg».proof.Proof.Gen.ReferenceIdeal.Run
import proofs.«157821_j37271726194873_1_alg».proof.Proof.Gen.ReferenceIdeal.Read
import proofs.«157821_j37271726194873_1_alg».proof.Proof.Gen.Pre_finite_inputs
import proofs.«157821_j37271726194873_1_alg».proof.Proof.RunResult
import proofs.«157821_j37271726194873_1_alg».proof.Proof.ResultValue
import proofs.«157821_j37271726194873_1_alg».proof.Proof.SameFunction
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the same result array: the kernel's is the second region's array folded back to
    rank 3, the reference's its last host operation's value, and the two are one function of the arguments. -/
theorem algebraic : Cert.algebraic_KernelIdeal_ReferenceIdeal := by
  intro m ρ m' ρ' _ hagree
  refine ⟨fun c => Cert.KernelIdeal.Gen.W4 m ρ c (Proc.devRef .tc Cert.KernelIdeal.main_v4),
    Cert.KernelIdeal.RunResult.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [e0, e1, e2, e3, e4, Cert.ReferenceIdeal.Read.val_main_v5_eq]
  exact ((Cert.KernelIdeal.Result.result_eq m ρ c).trans (Cert.SameFunction.result_is_reference _ _ _ _ _ _ _ _)).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
